-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S32x128x32x128 : Shape := ⟨4, ![32, 128, 32, 128]⟩
abbrev S32x1x32x1 : Shape := ⟨4, ![32, 1, 32, 1]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32x128, .f32⟩
  | .hbm, ⟨4, _⟩ => ⟨S32x1x32x1, .f32⟩
  | .hbm, ⟨5, _⟩ => ⟨S32x128x32x128, .f32⟩
  | .hbm, ⟨6, _⟩ => ⟨S32x128x32x128, .f32⟩
  | .hbm, ⟨7, _⟩ => ⟨S4096x4096, .f32⟩
  | .hbm, ⟨8, _⟩ => ⟨S8192x4096, .bf16⟩
  | .hbm, ⟨9, _⟩ => ⟨S4096x4096, .bf16⟩
  | .hbm, ⟨10, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v5) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S32x128x32x128 : Shape := ⟨4, ![32, 128, 32, 128]⟩
abbrev S32x1x32x1 : Shape := ⟨4, ![32, 1, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S8192x32x128, .f32⟩
  | .hbm, ⟨4, _⟩ => ⟨S8192x32x128, .f32⟩
  | .hbm, ⟨5, _⟩ => ⟨S_, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192x32x1, .f32⟩
  | .hbm, ⟨14, _⟩ => ⟨S8192x32x128, .f32⟩
  | .hbm, ⟨15, _⟩ => ⟨S8192x32x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x32x128, .f32⟩
  | .hbm, ⟨20, _⟩ => ⟨S8192x32x128, .f32⟩
  | .hbm, ⟨21, _⟩ => ⟨S_, .f32⟩
  | .hbm, ⟨22, _⟩ => ⟨S8192x32x128, .f32⟩
  | .hbm, ⟨23, _⟩ => ⟨S8192x32x128, .f32⟩
  | .hbm, ⟨24, _⟩ => ⟨S8192x32x1, .f32⟩
  | .hbm, ⟨25, _⟩ => ⟨S8192x32x128, .f32⟩
  | .hbm, ⟨26, _⟩ => ⟨S8192x32x128, .f32⟩
  | .hbm, ⟨27, _⟩ => ⟨S8192x4096, .f32⟩
  | .hbm, ⟨28, _⟩ => ⟨S32x128x32x128, .f32⟩
  | .hbm, ⟨29, _⟩ => ⟨S32x1x32x1, .f32⟩
  | .hbm, ⟨30, _⟩ => ⟨S32x128x32x128, .f32⟩
  | .hbm, ⟨31, _⟩ => ⟨S32x128x32x128, .f32⟩
  | .hbm, ⟨32, _⟩ => ⟨S4096x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/- What one grid point of the blocked matrix product leaves behind, as values.

   The kernel visits a 4 × 4 × 8 grid; the last axis runs over eight 512-column blocks of the contraction. Its
   body keeps a [2048, 1024] accumulator across the eight points of a run: at the first point of a run it stores the
   zero block, reads it back, and adds the block product; at every later point it adds the block product to what the
   point before left; at the last point it also copies the accumulator into the output block. So in each of the three
   control cases the accumulator ends at ONE term, "accumulator-before + (activation block) · (weight block)ᵀ", the
   accumulator-before being the zero block in the first case, and in the last case the output block holds that same
   term. The second half reads that term at an entry over the extended reals: the accumulator's entry plus a sum of 512
   products. -/
import proofs.«160474_j27066883899486_1_alg».proof.Proof.Gen.KernelIdeal.Value
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-! ## The three control cases, as values of the loaded blocks -/

/-- First point of a run: the accumulator ends at the zero block plus the block product (the read-back of the zero
    block just stored is that block). -/
theorem scratch_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S1024x512 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg6.read_unread, View.ld_unit_zero (S := S2048x1024) hz, View.ld_unit_zero (S := S2048x512) hz, View.ld_unit_zero (S := S1024x512) hz]

/-- A middle point of a run: the accumulator ends at what it held (xs0) plus the block product. -/
theorem scratch_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S1024x512 .bf16) (xs0 : Vec F S2048x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S2048x1024) hz, View.ld_unit_zero (S := S2048x512) hz, View.ld_unit_zero (S := S1024x512) hz]

/-- The last point of a run: the accumulator likewise, -/
theorem scratch_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S1024x512 .bf16) (xs0 : Vec F S2048x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S2048x512) hz, View.ld_unit_zero (S := S1024x512) hz]

/-- and the output block, which is stored from a read-back of the accumulator just written, holds the same term. -/
theorem out_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S1024x512 .bf16) (xs0 : Vec F S2048x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S2048x1024) _ hz]
  simp only [View.readAt_eq_ld, harg3.read_unread, harg4.read_unread, harg6.read_unread, View.ld_unit_zero (S := S2048x1024) hz, View.ld_unit_zero (S := S2048x512) hz, View.ld_unit_zero (S := S1024x512) hz]

/-! ## The payloads read at an entry, over the extended reals -/

open Idealize.ShloMosaic.ValueIdx

/-- The reset payload is the zero block. -/
theorem pay1_apply (j : S2048x1024.Idx) : k0_pay1 (F := Ideal) j = 0 := by
  unfold k0_pay1
  simp only [shapeCast_self]
  show Ideal.ofBits .f32 0x00000000#32 = 0
  exact Ideal.ofBits_zero_f32

theorem lhs_axis0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_axis1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_axis0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_axis1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The accumulating payload at entry (p, q): what the accumulator holds there plus the partial product of row p of
    the activation block with row q of the weight block, a sum over the block's 512 columns. -/
theorem pay2_apply (acc : Vec Ideal S2048x1024 .f32) (x0 : Vec Ideal S2048x512 .bf16) (x1 : Vec Ideal S1024x512 .bf16)
    (p : Fin 2048) (q : Fin 1024) :
    k0_pay2 (F := Ideal) acc x0 x1 (ix2 p q) = acc (ix2 p q) + ∑ kk : Fin 512, x0 (ix2 p kk) * x1 (ix2 q kk) := by
  unfold k0_pay2
  simp only [shapeCast_self, matmul]
  rw [ValueIdx.addf_apply, Ideal.matmul_constant_zero_apply, ← Equiv.sum_comp (contrEquiv1 dot_S2048x512_S1024x512_S2048x1024_1_1_0_0_n_n 512 rfl rfl).symm]
  refine congrArg _ (Finset.sum_congr rfl fun k _ => ?_)
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

end Cert.KernelIdeal.KValue

end
-- ==== Proof.BlockSum.lean ====
/- Re-association of a sum over 4096 columns into eight consecutive blocks of 512: the order in which the
   kernel's grid visits the contraction axis. Valid in any commutative additive monoid, so in particular over
   the extended reals, where addition is associative and commutative at the infinities too. -/
import Mathlib.Algebra.BigOperators.Fin
import Mathlib.Logic.Equiv.Fin.Basic

namespace Cert.BlockSum

/-- A sum over k < 4096 is the sum over the eight blocks s of the sums over the 512 columns 512·s + kk of block s. -/
theorem sum_blocks {M : Type*} [AddCommMonoid M] (f : Fin 4096 → M) :
    ∑ s : Fin 8, ∑ kk : Fin 512, f ⟨512 * s.val + kk.val, by have := s.isLt; have := kk.isLt; omega⟩ = ∑ k : Fin 4096, f k := by
  have e := Equiv.sum_comp (finProdFinEquiv (m := 8) (n := 512)) f
  rw [Fintype.sum_prod_type] at e
  rw [← e]
  refine Finset.sum_congr rfl fun s _ => Finset.sum_congr rfl fun kk _ => ?_
  congr 1
  apply Fin.ext
  simp [finProdFinEquiv]
  omega

end Cert.BlockSum
-- ==== Proof.Spec.lean ====
/- The function both programs compute over the extended reals: the product x · wᵀ of an [8192, 4096]
   array x with a [4096, 4096] array w — entry (r, n) is the sum over k of x[r, k] · w[n, k]. The kernel
   reaches it as eight partial sums over 512 columns each, added in order to a zero block; the reference
   as one contraction of the de-quantized activations, which for finite x are x itself. -/
import Idealize.ShloMosaic.Lib.ValueIdx
import Idealize.ShloMosaic.PureOps.Ideal

noncomputable section

namespace Cert.Spec

open Idealize.ShloMosaic Idealize.ShloMosaic.ValueIdx

/-- Entry (r, n) of x · wᵀ: the sum over the 4096 columns k of x[r, k] · w[n, k]. -/
def mulT (x : (⟨2, ![8192, 4096]⟩ : Shape).Idx → EReal) (w : (⟨2, ![4096, 4096]⟩ : Shape).Idx → EReal) :
    (⟨2, ![8192, 4096]⟩ : Shape).Idx → EReal :=
  fun i => ∑ k : Fin 4096, x (ix2 (i 0) k) * w (ix2 (i 1) k)

theorem mulT_apply (x : (⟨2, ![8192, 4096]⟩ : Shape).Idx → EReal) (w : (⟨2, ![4096, 4096]⟩ : Shape).Idx → EReal)
    (r : Fin 8192) (n : Fin 4096) :
    mulT x w (ix2 r n) = ∑ k : Fin 4096, x (ix2 r k) * w (ix2 n k) := rfl

end Cert.Spec

end
-- ==== Proof.KernelValue.lean ====
/- The kernel's result array over the extended reals: the product x · wᵀ.

   The grid is 4 × 4 × 8: point t = 32·i + 8·j + k works on block row i of the activations (2048 rows), block row j
   of the de-quantized weight (1024 rows) and the k-th block of 512 columns of both. Output block (i, j) is written
   back once, at k = 7, from an accumulator that was reset at k = 0 and gained one block product per point. So the
   entry (p, q) of that block is the sum over k of the sums over the 512 columns of block k, which is one sum over
   all 4096 columns: entry (2048·i + p, 1024·j + q) of x · wᵀ. The blocks written back at the points t ≡ 7 (mod 8)
   tile the [8192, 4096] result, so the whole array ends at x · wᵀ. The two arrays the windows read are what the host
   operations before the call leave: the activations converted to bf16, which over the extended reals are the
   activations, and the de-quantized weight, spelled by the same four operations as the reference's. -/
import proofs.«160474_j27066883899486_1_alg».proof.Proof.Gen.KernelIdeal.Value
import proofs.«160474_j27066883899486_1_alg».proof.Proof.Gen.ReferenceIdeal.Read
import proofs.«160474_j27066883899486_1_alg».proof.Proof.Pieces
import proofs.«160474_j27066883899486_1_alg».proof.Proof.BlockSum
import proofs.«160474_j27066883899486_1_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-! ## The arrays the windows stage, and their blocks -/

/-- The two arrays the kernel's windows stage, as the region finds them, at their literal shapes over the extended reals. -/
abbrev xarr (c : Dev nD) : S8192x4096.Idx → EReal := V m c main_v5
abbrev warr (c : Dev nD) : S4096x4096.Idx → EReal := V m c main_v6

/-- The activations as the kernel's region finds them: the conversion to bf16 is the identity on extended reals. -/
theorem V_v5 (c : Dev nD) : xarr m c = m ((c : Thread nD τ).loc main_arg0) := by
  dsimp only [xarr, warr, V, hostOps0]; after_results; rfl

/-- The de-quantized weight as the region finds it: the same four host operations as the reference's. -/
theorem V_v6 (c : Dev nD) : warr m c
    = Cert.ReferenceIdeal.Read.val_main_v19 (F := Ideal) (m ((c : Thread nD τ).loc main_arg1)) (m ((c : Thread nD τ).loc main_arg2)) := by
  dsimp only [xarr, warr, V, hostOps0]; after_results; rfl

/-- The three index maps in closed form over the linear point t = 32·i + 8·j + k of the 4 × 4 × 8 grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The activation block and the weight block the kernel's body is handed at point t, at their literal shapes. -/
abbrev xblk (c : Dev nD) (t : Fin cfg0.N) : Vec Ideal S2048x512 .bf16 := iblk m c 0 t
abbrev wblk (c : Dev nD) (t : Fin cfg0.N) : Vec Ideal S1024x512 .bf16 := iblk m c 1 t

/-- Entry (p, kk) of the activation block at point t is entry (2048·(t/32) + p, 512·(t%8) + kk) of the array. -/
theorem xblk_apply (c : Dev nD) (t : Fin cfg0.N) (p : Fin 2048) (kk : Fin 512) (r : Fin 8192) (k : Fin 4096)
    (hr : r.val = t.val / 32 * 2048 + p.val) (hk : k.val = t.val % 8 * 512 + kk.val) :
    xblk m c t (ix2 p kk) = xarr m c (ix2 r k) := by
  obtain ⟨e0, e1, -, -, -, -⟩ := idx_facts t
  unfold xblk iblk
  rw [View.read_apply]
  show V m c main_v5 _ = V m c main_v5 _
  congr 1
  funext a
  apply Fin.ext
  match a with
  | ⟨0, _⟩ => show win0_0.index t (0 : Fin 2) * 2048 + 1 * p.val = r.val; rw [e0]; omega
  | ⟨1, _⟩ => show win0_0.index t (1 : Fin 2) * 512 + 1 * kk.val = k.val; rw [e1]; omega

/-- Entry (q, kk) of the weight block at point t is entry (1024·((t/8)%4) + q, 512·(t%8) + kk) of the array. -/
theorem wblk_apply (c : Dev nD) (t : Fin cfg0.N) (q : Fin 1024) (kk : Fin 512) (n : Fin 4096) (k : Fin 4096)
    (hn : n.val = t.val / 8 % 4 * 1024 + q.val) (hk : k.val = t.val % 8 * 512 + kk.val) :
    wblk m c t (ix2 q kk) = warr m c (ix2 n k) := by
  obtain ⟨-, -, e0, e1, -, -⟩ := idx_facts t
  unfold wblk iblk
  rw [View.read_apply]
  show V m c main_v6 _ = V m c main_v6 _
  congr 1
  funext a
  apply Fin.ext
  match a with
  | ⟨0, _⟩ => show win0_1.index t (0 : Fin 2) * 1024 + 1 * q.val = n.val; rw [e0]; omega
  | ⟨1, _⟩ => show win0_1.index t (1 : Fin 2) * 512 + 1 * kk.val = k.val; rw [e1]; omega

/-! ## The run of eight points that fills one output block -/

/-- What point n adds to entry j = (p, q) of the accumulator: row p of its activation block times row q of its weight
    block, summed over the block's 512 columns. (Total in n, zero past the grid, so that sums over a run need no
    bound proofs.) -/
def addend (c : Dev nD) (n : ℕ) (j : S2048x1024.Idx) : EReal :=
  if h : n < cfg0.N then
    ∑ kk : Fin 512, xblk m c ⟨n, h⟩ (ix2 (j 0) kk) * wblk m c ⟨n, h⟩ (ix2 (j 1) kk)
  else 0

theorem addend_apply (c : Dev nD) (n : ℕ) (h : n < cfg0.N) (p : Fin 2048) (q : Fin 1024) :
    addend m c n (ix2 p q)
      = ∑ kk : Fin 512, xblk m c ⟨n, h⟩ (ix2 p kk) * wblk m c ⟨n, h⟩ (ix2 q kk) := by
  unfold addend
  rw [dif_pos h]

/-- At the first point of a run the accumulator is reset: it ends at that point's addend alone. -/
theorem scAt_reset (c : Dev nD) (n : ℕ) (hb : n < cfg0.N) (h0 : n % 8 = 0) (acc : Vec Ideal S2048x1024 .f32) (j : S2048x1024.Idx) :
    Value.scAt0_0 m c n hb acc j = 0 + addend m c n j := by
  have h1 : ¬ n % 8 = 7 := by omega
  obtain ⟨p, q, rfl⟩ : ∃ (p : Fin 2048) (q : Fin 1024), j = ix2 p q := ⟨j 0, j 1, eq_ix2 j⟩
  unfold Value.scAt0_0
  rw [dif_pos h0, dif_neg h1]
  refine (congrFun (scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (xblk m c (⟨n, hb⟩ : Fin cfg0.N)) (wblk m c (⟨n, hb⟩ : Fin cfg0.N))) (ix2 p q)).trans ?_
  refine (pay2_apply (k0_pay1 (F := Ideal)) (xblk m c (⟨n, hb⟩ : Fin cfg0.N)) (wblk m c (⟨n, hb⟩ : Fin cfg0.N)) p q).trans ?_
  rw [pay1_apply, addend_apply m c n hb]

/-- At every later point of a run it gains that point's addend. -/
theorem scAt_step (c : Dev nD) (n : ℕ) (hb : n < cfg0.N) (h0 : ¬ n % 8 = 0) (acc : Vec Ideal S2048x1024 .f32) (j : S2048x1024.Idx) :
    Value.scAt0_0 m c n hb acc j = acc j + addend m c n j := by
  obtain ⟨p, q, rfl⟩ : ∃ (p : Fin 2048) (q : Fin 1024), j = ix2 p q := ⟨j 0, j 1, eq_ix2 j⟩
  unfold Value.scAt0_0
  by_cases h1 : n % 8 = 7
  · rw [dif_neg h0, dif_pos h1]
    refine (congrFun (scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (xblk m c (⟨n, hb⟩ : Fin cfg0.N)) (wblk m c (⟨n, hb⟩ : Fin cfg0.N)) acc) (ix2 p q)).trans ?_
    refine (pay2_apply acc (xblk m c (⟨n, hb⟩ : Fin cfg0.N)) (wblk m c (⟨n, hb⟩ : Fin cfg0.N)) p q).trans ?_
    rw [addend_apply m c n hb]
  · rw [dif_neg h0, dif_neg h1]
    refine (congrFun (scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (xblk m c (⟨n, hb⟩ : Fin cfg0.N)) (wblk m c (⟨n, hb⟩ : Fin cfg0.N)) acc) (ix2 p q)).trans ?_
    refine (pay2_apply acc (xblk m c (⟨n, hb⟩ : Fin cfg0.N)) (wblk m c (⟨n, hb⟩ : Fin cfg0.N)) p q).trans ?_
    rw [addend_apply m c n hb]

/-- So after the last point t of a run (t ≡ 7 mod 8) the accumulator holds the sum of the run's eight addends. -/
theorem fold_last (c : Dev nD) (t : Fin cfg0.N) (h7 : t.val % 8 = 7) (j : S2048x1024.Idx) :
    (outsAt0 m c t.val t.isLt).2 j = ∑ s ∈ Finset.range 8, addend m c (8 * (t.val / 8) + s) j := by
  have hN : cfg0.N = 128 := N_0
  have ht := t.isLt
  have key := Pipeline.accAt_add_apply (ι := S2048x1024.Idx) (β := EReal)
    (fun n h => Value.scAt0_0 m c n h (VS0_0.read (Elt Ideal) VS0_0.junk)) (Value.scAt0_0 m c) (fun _ => 0) (addend m c)
    (8 * (t.val / 8)) 7
    (fun h i => scAt_reset m c _ h (by omega) _ i)
    (fun n h acc i hlt hle => scAt_step m c n h (by omega) acc i)
    7 (le_refl 7) (by omega) j
  rw [zero_add] at key
  rw [Value.soutsAt0_0_eq]
  have e : ∀ (k : ℕ) (h : 8 * (t.val / 8) + k < cfg0.N) (h' : 8 * (t.val / 8) + 7 < cfg0.N), k = 7 →
      Pipeline.accAt (fun n h => Value.scAt0_0 m c n h (VS0_0.read (Elt Ideal) VS0_0.junk)) (Value.scAt0_0 m c) (8 * (t.val / 8)) k h
        = Pipeline.accAt (fun n h => Value.scAt0_0 m c n h (VS0_0.read (Elt Ideal) VS0_0.junk)) (Value.scAt0_0 m c) (8 * (t.val / 8)) 7 h' := by
    intro k h h' hk; subst hk; rfl
  rw [e _ _ (by omega) h7]
  exact key

/-- The eight addends of the run that ends at t are the eight 512-column blocks of ONE sum over the 4096 columns:
    entry (r, n) of x · wᵀ, where r = 2048·(t/32) + p and n = 1024·((t/8)%4) + q are the entry's row and column in the
    whole result. -/
theorem run_sum (c : Dev nD) (t : Fin cfg0.N) (h7 : t.val % 8 = 7) (p : Fin 2048) (q : Fin 1024) (r : Fin 8192) (n : Fin 4096)
    (hr : r.val = t.val / 32 * 2048 + p.val) (hn : n.val = t.val / 8 % 4 * 1024 + q.val) :
    ∑ s ∈ Finset.range 8, addend m c (8 * (t.val / 8) + s) (ix2 p q)
      = ∑ k : Fin 4096, xarr m c (ix2 r k) * warr m c (ix2 n k) := by
  have hN : cfg0.N = 128 := N_0
  have ht := t.isLt
  rw [Finset.sum_range, ← Cert.BlockSum.sum_blocks (fun k => xarr m c (ix2 r k) * warr m c (ix2 n k))]
  refine Finset.sum_congr rfl fun s _ => ?_
  have hs := s.isLt
  have hlt : 8 * (t.val / 8) + s.val < cfg0.N := by omega
  rw [addend_apply m c _ hlt]
  refine Finset.sum_congr rfl fun kk _ => ?_
  have hkk := kk.isLt
  rw [xblk_apply m c ⟨_, hlt⟩ p kk r ⟨512 * s.val + kk.val, by omega⟩ (by show r.val = (8 * (t.val / 8) + s.val) / 32 * 2048 + p.val; omega) (by show 512 * s.val + kk.val = (8 * (t.val / 8) + s.val) % 8 * 512 + kk.val; omega),
    wblk_apply m c ⟨_, hlt⟩ q kk n ⟨512 * s.val + kk.val, by omega⟩ (by show n.val = (8 * (t.val / 8) + s.val) / 8 % 4 * 1024 + q.val; omega) (by show 512 * s.val + kk.val = (8 * (t.val / 8) + s.val) % 8 * 512 + kk.val; omega)]

/-! ## The result array -/

/-- What the result array ends holding: x · wᵀ of the activations and the de-quantized weight. -/
abbrev result (c : Dev nD) : Buf (Elt Ideal) ((c : Thread nD τ).loc main_v7) :=
  Cert.Spec.mulT (m ((c : Thread nD τ).loc main_arg0))
    (Cert.ReferenceIdeal.Read.val_main_v19 (F := Ideal) (m ((c : Thread nD τ).loc main_arg1)) (m ((c : Thread nD τ).loc main_arg2)))

/-- A point that writes its block back is the last of a run, and what it writes is its block of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬ t.val % 8 = 0 := by omega
  have e1 : (outsAt0 m c t.val t.isLt).1 = (outsAt0 m c t.val t.isLt).2 := by
    rw [outsAt0_C m c t h0 h7]
    dsimp only
    exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (xblk m c t) (wblk m c t) _).trans
      (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (xblk m c t) (wblk m c t) _).symm
  rw [Value.flushed2, e1]
  obtain ⟨-, -, -, -, e4, e5⟩ := idx_facts t
  funext j
  obtain ⟨p, q, rfl⟩ : ∃ (p : Fin 2048) (q : Fin 1024), j = ix2 p q := ⟨j 0, j 1, eq_ix2 j⟩
  show (outsAt0 m c t.val t.isLt).2 (ix2 p q) = result m c (((cfg0.win 2).blk t).view.emb (ix2 p q))
  refine (fold_last m c t h7 (ix2 p q)).trans ?_
  refine (run_sum m c t h7 p q ((((cfg0.win 2).blk t).view.emb (ix2 p q)) 0) ((((cfg0.win 2).blk t).view.emb (ix2 p q)) 1) ?_ ?_).trans ?_
  · show win0_2.index t (0 : Fin 2) * 2048 + 1 * p.val = t.val / 32 * 2048 + p.val
    rw [e4]; omega
  · show win0_2.index t (1 : Fin 2) * 1024 + 1 * q.val = t.val / 8 % 4 * 1024 + q.val
    rw [e5]; omega
  · rw [V_v5, V_v6]
    rfl

/-- An entry of the result is in point t's block iff each coordinate is in the block's range. -/
theorem mem_blk (t : Fin cfg0.N) (i : S8192x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v7).slice (win0_2.rect t)).set ↔ _
  rw [View.set_slice_whole, Rect.mem_set_unit]
  exact Iff.rfl

/-- Every entry (r, n) of the result lies in the block written back at the last point of the run for block row
    r / 2048 and block column n / 1024. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  obtain ⟨t, ht⟩ : ∃ t : Fin cfg0.N, t.val = (i 0).val / 2048 * 32 + (i 1).val / 1024 * 8 + 7 := ⟨⟨_, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 2048 ≤ (i 0).val ∧ (i 0).val < win0_2.index t (0 : Fin 2) * 2048 + 2048; rw [e4]; omega
  | ⟨1, _⟩ => show win0_2.index t (1 : Fin 2) * 1024 ≤ (i 1).val ∧ (i 1).val < win0_2.index t (1 : Fin 2) * 1024 + 1024; rw [e5]; omega

/-- So the result array ends holding the product. -/
theorem final (c : Dev nD) : (dats m 0 c).arrAt 2 cfg0.N = result m c :=
  (dats m 0 c).arrAt_eq_of_cover 2 (result m c) (flushed_eq m c) cover

/-- The kernel's run, read: the result array at x · wᵀ, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.Consts.lean ====
/- The float literals the two programs spell, as the extended reals their patterns denote at the ideal
   instance: 448 and -448 (the clip bounds and the divisor of the activation scale), the reference's
   epsilon (only its sign matters: it is a positive real), and the reduction's initial value -∞. -/
import Idealize.ShloMosaic.PureOps.Ideal

noncomputable section

namespace Cert.Consts

open Idealize.ShloMosaic

/-- The pattern of `448.0` denotes the real 448. -/
theorem ofBits_448 : Ideal.ofBits .f32 0x43E00000#32 = ((448 : ℝ) : EReal) := by
  simp [Ideal.ofBits, Ideal.ieee, -EReal.coe_mul]; norm_num

/-- The pattern of `-448.0` denotes the real -448. -/
theorem ofBits_neg448 : Ideal.ofBits .f32 0xC3E00000#32 = ((-448 : ℝ) : EReal) := by
  simp [Ideal.ofBits, Ideal.ieee, -EReal.coe_mul]; norm_num

/-- The reference's epsilon (the float nearest 1e-8) denotes a positive real. -/
theorem ofBits_eps : ∃ e : ℝ, 0 < e ∧ Ideal.ofBits .f32 0x322BCC77#32 = (e : EReal) := by
  refine ⟨(11258999 : ℝ) * (2 : ℝ) ^ (-50 : Int), by positivity, ?_⟩
  simp [Ideal.ofBits, Ideal.ieee, -EReal.coe_mul]

/-- The maximum's initial value is -∞. -/
theorem ofBits_neg_inf : Ideal.ofBits .f32 0xFF800000#32 = (⊥ : EReal) := by
  simp [Ideal.ofBits, Ideal.ieee]

end Cert.Consts

end
-- ==== Proof.Quant.lean ====
/- The scalar law behind block quantization over the extended reals. For a real entry r of a chunk whose
   largest absolute value is a real M, and a positive real e, the scale is s = M / 448 + e, a positive real
   with |r| ≤ M < 448 · s. So r / s lies strictly inside [-448, 448], clipping to that interval leaves it
   unchanged, and multiplying back by s returns r exactly. -/
import Idealize.ShloMosaic.PureOps.Ideal
import Mathlib.Data.EReal.Basic
import Mathlib.Data.EReal.Operations
import Mathlib.Tactic.FieldSimp
import Mathlib.Tactic.Linarith
import Mathlib.Tactic.Positivity

noncomputable section

namespace Cert.Quant

open Idealize.ShloMosaic

/-- The scale of a chunk with real maximum M: M / 448 + e, again a real. -/
theorem scale_coe (M e : ℝ) :
    Ideal.div (M : EReal) ((448 : ℝ) : EReal) + (e : EReal) = ((M / 448 + e : ℝ) : EReal) := by
  rw [Ideal.div_coe (by norm_num : (448 : ℝ) ≠ 0), ← EReal.coe_mul, ← EReal.coe_add]
  congr 1
  ring

/-- Over the reals: with |r| ≤ M and 0 < e, the quotient r / (M / 448 + e) is within [-448, 448]. -/
theorem quot_bounds (r M e : ℝ) (hr : |r| ≤ M) (he : 0 < e) :
    -448 ≤ r * (1 / (M / 448 + e)) ∧ r * (1 / (M / 448 + e)) ≤ 448 := by
  have hM : 0 ≤ M := le_trans (abs_nonneg r) hr
  have ht : 0 < M / 448 + e := by positivity
  obtain ⟨h1, h2⟩ := abs_le.1 hr
  rw [mul_one_div, le_div_iff₀ ht, div_le_iff₀ ht]
  constructor <;> nlinarith

/-- Quantize, clip, de-quantize: the entry comes back. -/
theorem clip_mul_scale (r M e : ℝ) (hr : |r| ≤ M) (he : 0 < e) :
    min ((448 : ℝ) : EReal) (max ((-448 : ℝ) : EReal)
        (Ideal.div (r : EReal) (Ideal.div (M : EReal) ((448 : ℝ) : EReal) + (e : EReal))))
      * (Ideal.div (M : EReal) ((448 : ℝ) : EReal) + (e : EReal)) = (r : EReal) := by
  have hM : 0 ≤ M := le_trans (abs_nonneg r) hr
  have ht : 0 < M / 448 + e := by positivity
  obtain ⟨h1, h2⟩ := quot_bounds r M e hr he
  rw [scale_coe, Ideal.div_coe ht.ne', ← EReal.coe_mul, max_eq_right (EReal.coe_le_coe_iff.2 h1),
    min_eq_right (EReal.coe_le_coe_iff.2 h2), ← EReal.coe_mul]
  congr 1
  field_simp

end Cert.Quant

end
-- ==== Proof.RefValue.lean ====
/- The value of the reference program over the extended reals, for activations whose every entry is a real.
   The reference cuts each row of x into 32 chunks of 128 entries, takes per chunk the scale
   s = (max over the chunk of |entry|) / 448 + e with e a positive real, forms clip(entry / s, -448, 448) and
   multiplies by s again. In a chunk of reals the maximum M of the absolute values is a real with |entry| ≤ M,
   so s = M / 448 + e is a positive real, |entry / s| < 448, the clip changes nothing and (entry / s) · s is the
   entry: the de-quantized activations are x itself. The contraction with the de-quantized weight is then the
   plain product x · wᵀ. -/
import proofs.«160474_j27066883899486_1_alg».proof.Proof.Gen.ReferenceIdeal.Read
import proofs.«160474_j27066883899486_1_alg».proof.Proof.Spec
import proofs.«160474_j27066883899486_1_alg».proof.Proof.Consts
import proofs.«160474_j27066883899486_1_alg».proof.Proof.Quant
import Idealize.ShloMosaic.PureOps.Reduce
import Idealize.ShloMosaic.PureOps.Ideal.Laws
import Idealize.ShloMosaic.Lib.ValueIdx
import Mathlib.Data.Finset.Fold
import Mathlib.Data.EReal.Basic

noncomputable section

namespace Cert.ReferenceIdeal.RefValue

open Cert.ReferenceIdeal Cert.ReferenceIdeal.Gen Cert.ReferenceIdeal.Read Idealize.ShloMosaic
  Idealize.ShloMosaic.ValueIdx

/-- A maximum, started from -∞, over a finite set of reals that has a member is a real, and bounds every member. -/
theorem fold_max_real {ι : Type} (S : Finset ι) (f : ι → EReal) (y : ι) (hy : y ∈ S)
    (hf : ∀ i ∈ S, ∃ a : ℝ, f i = (a : EReal)) :
    ∃ M : ℝ, S.fold max (⊥ : EReal) f = (M : EReal) ∧ ∀ i ∈ S, f i ≤ (M : EReal) := by
  have hlt : S.fold max (⊥ : EReal) f < ⊤ := by
    rw [Finset.fold_max_lt]
    refine ⟨bot_lt_top, fun i hi => ?_⟩
    obtain ⟨a, ha⟩ := hf i hi
    rw [ha]; exact EReal.coe_lt_top a
  have hle : ∀ i ∈ S, f i ≤ S.fold max (⊥ : EReal) f := fun i hi =>
    (Finset.le_fold_max _).2 (Or.inr ⟨i, hi, le_refl _⟩)
  have hbot : S.fold max (⊥ : EReal) f ≠ ⊥ := by
    intro h
    obtain ⟨a, ha⟩ := hf y hy
    have := hle y hy
    rw [h, ha, le_bot_iff] at this
    exact EReal.coe_ne_bot a this
  refine ⟨(S.fold max (⊥ : EReal) f).toReal, (EReal.coe_toReal hlt.ne hbot).symm, fun i hi => ?_⟩
  rw [EReal.coe_toReal hlt.ne hbot]
  exact hle i hi

section

variable (x0 : (⟨S8192x4096, .f32⟩ : BufTy).Contents (Elt Ideal))
  (hfin : ∀ i, ∃ r : ℝ, x0 i = ((r : ℝ) : EReal))

/-- The absolute value of a real entry is the real absolute value. -/
theorem v1_abs (y : S8192x32x128.Idx) (r : ℝ) (h : val_main_v0 (F := Ideal) x0 y = ((r : ℝ) : EReal)) :
    val_main_v1 (F := Ideal) x0 y = ((|r| : ℝ) : EReal) := by
  rw [val_main_v1_apply, h, Ideal.hostAbsf_def, Ideal.absf_def, ← EReal.coe_neg, abs_eq_max_neg]
  exact (EReal.coe_strictMono.monotone.map_max).symm

/-- The chunk of an entry: the reduction drops the position inside the chunk. -/
theorem drop_eq (y : S8192x32x128.Idx) :
    reducesTo_S8192x32x128_S8192x32_d2.drop y = idx_main_v7 (idx_main_v8 y) := by
  funext b
  apply Fin.ext
  match b with
  | ⟨0, _⟩ => exact reducesTo_S8192x32x128_S8192x32_d2.drop_apply_val_of_eq y 0 0
  | ⟨1, _⟩ => exact reducesTo_S8192x32x128_S8192x32_d2.drop_apply_val_of_eq y 1 1

include hfin

/-- Every entry of the chunked activations is a real. -/
theorem v0_real (y : S8192x32x128.Idx) : ∃ r : ℝ, val_main_v0 (F := Ideal) x0 y = ((r : ℝ) : EReal) := by
  rw [val_main_v0_apply]; exact hfin _

/-- The maximum of the absolute values over the chunk of an entry is a real that bounds the entry. -/
theorem v2_real (y : S8192x32x128.Idx) (r : ℝ) (hr : val_main_v0 (F := Ideal) x0 y = ((r : ℝ) : EReal)) :
    ∃ M : ℝ, val_main_v2 (F := Ideal) x0 (idx_main_v7 (idx_main_v8 y)) = ((M : ℝ) : EReal) ∧ |r| ≤ M := by
  have key : ∀ S : Finset S8192x32x128.Idx, y ∈ S →
      ∃ M : ℝ, S.fold max (⊥ : EReal) (val_main_v1 (F := Ideal) x0) = ((M : ℝ) : EReal) ∧ |r| ≤ M := by
    intro S hy
    obtain ⟨M, hM, hle⟩ := fold_max_real S (val_main_v1 (F := Ideal) x0) y hy (fun i _ => by
      obtain ⟨a, ha⟩ := v0_real x0 hfin i
      exact ⟨|a|, v1_abs x0 i a ha⟩)
    refine ⟨M, hM, ?_⟩
    have := hle y hy
    rw [v1_abs x0 y r hr] at this
    exact EReal.coe_le_coe_iff.1 this
  have hfold := Host.reduce_eq_fold (FloatOps.maximumf (F := Ideal) (φ := .f32)) (val_main_v1 (F := Ideal) x0)
    (val_main_cst (F := Ideal)) reducesTo_S8192x32x128_S8192x32_d2 h_S_ (reducesTo_S8192x32x128_S8192x32_d2.drop y)
  rw [val_main_cst_apply, Ideal.ofBits_def, Consts.ofBits_neg_inf] at hfold
  have hv2 : val_main_v2 (F := Ideal) x0 (reducesTo_S8192x32x128_S8192x32_d2.drop y) = _ := hfold
  rw [← drop_eq, hv2]
  refine key _ ?_
  exact Finset.mem_filter.2 ⟨Finset.mem_univ y, rfl⟩

/-- Quantizing, clipping and de-quantizing an entry returns the entry. -/
theorem v13_eq_v0 (y : S8192x32x128.Idx) : val_main_v13 (F := Ideal) x0 y = val_main_v0 (F := Ideal) x0 y := by
  obtain ⟨r, hr⟩ := v0_real x0 hfin y
  obtain ⟨M, hM, hrM⟩ := v2_real x0 hfin y r hr
  obtain ⟨e, he, hee⟩ := Consts.ofBits_eps
  have hs : val_main_v6 (F := Ideal) x0 (idx_main_v7 (idx_main_v8 y))
      = Ideal.div ((M : ℝ) : EReal) ((448 : ℝ) : EReal) + ((e : ℝ) : EReal) := by
    rw [val_main_v6_apply, val_main_v4_apply, val_main_v3_apply, val_main_cst_0_apply, val_main_v5_apply,
      val_main_cst_1_apply, hM]
    simp only [Ideal.addf_def, Ideal.hostDivf_def, Ideal.ofBits_def, Consts.ofBits_448, hee]
  rw [val_main_v13_apply, val_main_v10_apply, val_main_call0_v4_apply, val_main_call0_v3_apply, val_main_cst_3_apply,
    val_main_call0_v2_apply, val_main_call0_v1_apply, val_main_call0_v0_apply, val_main_cst_2_apply, val_main_v9_apply,
    val_main_v12_apply, val_main_v11_apply, val_main_v8_apply, val_main_v7_apply, hr,
    show idx_main_v11 (idx_main_v12 y) = idx_main_v7 (idx_main_v8 y) from rfl, hs]
  simp only [Ideal.mulf_def, Ideal.minimumf_def, Ideal.maximumf_def, Ideal.hostDivf_def, Ideal.ofBits_def,
    Consts.ofBits_448, Consts.ofBits_neg448]
  exact Cert.Quant.clip_mul_scale r M e hrM he

/-- The de-quantized activations are the activations. -/
theorem v14_eq : val_main_v14 (F := Ideal) x0 = x0 := by
  funext i
  rw [val_main_v14_apply, v13_eq_v0 x0 hfin, val_main_v0_apply]
  congr 1
  funext a
  apply Fin.ext
  have h0 : (i 0).val < 8192 := (i 0).isLt
  have h1 : (i 1).val < 4096 := (i 1).isLt
  match a with
  | ⟨0, _⟩ =>
    show (((((i 0).val * 4096 + (i 1).val) / 4096) * 32 + ((i 0).val * 4096 + (i 1).val) / 128 % 32) * 128
      + ((i 0).val * 4096 + (i 1).val) % 128) / 4096 = (i 0).val
    omega
  | ⟨1, _⟩ =>
    show (((((i 0).val * 4096 + (i 1).val) / 4096) * 32 + ((i 0).val * 4096 + (i 1).val) / 128 % 32) * 128
      + ((i 0).val * 4096 + (i 1).val) % 128) % 4096 = (i 1).val
    omega

end

/-- For activations of reals the reference's result is the product of the activations with the transposed
    de-quantized weight. -/
theorem result_eq (x0 : (⟨Cert.ReferenceIdeal.S8192x4096, .f32⟩ : BufTy).Contents (Elt Ideal)) (x1 : (⟨Cert.ReferenceIdeal.S4096x4096, .f32⟩ : BufTy).Contents (Elt Ideal)) (x2 : (⟨Cert.ReferenceIdeal.S32x32, .f32⟩ : BufTy).Contents (Elt Ideal))
    (hfin : ∀ i, ∃ r : ℝ, x0 i = ((r : ℝ) : EReal)) :
    Cert.ReferenceIdeal.Read.val_main_v20 (F := Ideal) x0 x1 x2 = Cert.Spec.mulT x0 (Cert.ReferenceIdeal.Read.val_main_v19 (F := Ideal) x1 x2) := by
  funext i
  rw [val_main_v20_apply, v14_eq x0 hfin]
  unfold Cert.Spec.mulT
  refine Finset.sum_congr rfl fun k _ => ?_
  have el : lidx_main_v20 i k = ix2 (i 0) k := by
    funext a
    match a with
    | ⟨0, _⟩ => rfl
    | ⟨1, _⟩ => rfl
  have er : ridx_main_v20 i k = ix2 (i 1) k := by
    funext a
    match a with
    | ⟨0, _⟩ => rfl
    | ⟨1, _⟩ => rfl
  rw [el, er]
  rfl

end Cert.ReferenceIdeal.RefValue

end
-- ==== Proof.Finite.lean ====
/- The activations are real numbers, read back from the precondition.

   The precondition states `all (|x| < +∞)` for each of the three inputs and joins the three bits by `and`.
   At the ideal instance a float is an extended real and `|x| = max x (-x)`; the bit pattern 0x7F800000 denotes
   `⊤`.  So the first conjunct says that every entry `a` of the activations satisfies `max a (-a) < ⊤`.
   Neither `⊥` nor `⊤` does (for both, `max a (-a) = ⊤`), hence every entry is the image of a real number. -/
import proofs.«160474_j27066883899486_1_alg».proof.Pre_finite_inputs
import Idealize.ShloMosaic.Lib.ReduceAll
import Idealize.ShloMosaic.Lib.ValueIdx
import Idealize.ShloMosaic.Lib.IdealHost
import Idealize.ShloMosaic.PureOps.Ideal.Laws
import Mathlib.Data.EReal.Basic

noncomputable section

namespace Cert.Finite

open Idealize.ShloMosaic
open Idealize.ShloMosaic.ValueIdx

/-- The pattern of `+inf` denotes `⊤`. -/
theorem ofBits_inf : Ideal.ofBits .f32 0x7F800000#32 = (⊤ : EReal) := by
  simp [Ideal.ofBits, Ideal.ieee]

/-- A rank-0 array has exactly one index. -/
instance : Subsingleton Cert.Pre_finite_inputs.S_.Idx := ⟨fun a b => funext fun d => d.elim0⟩

/-- An extended real whose absolute value `max a (-a)` is strictly below `⊤` is a real number:
    at `⊥` and at `⊤` the absolute value is `⊤` itself. -/
theorem real_of_abs_lt_top (a : EReal) (h : Ideal.cmp .olt (max a (-a)) (⊤ : EReal) = 1#1) :
    ∃ r : ℝ, a = ((r : ℝ) : EReal) := by
  induction a using EReal.rec with
  | bot => simp [Ideal.cmp] at h
  | coe r => exact ⟨r, rfl⟩
  | top => simp [Ideal.cmp] at h

/-- Under the precondition every entry of the activations is a real number. -/
theorem x_real [Cert.Pre_finite_inputs.Facts] (x0 : FVec Ideal Cert.Pre_finite_inputs.S8192x4096 .f32) (x1 : FVec Ideal Cert.Pre_finite_inputs.S4096x4096 .f32) (x2 : FVec Ideal Cert.Pre_finite_inputs.S32x32 .f32)
    (h : Cert.Pre_finite_inputs.fn (F := Ideal) x0 x1 x2 = (fun _ => 1#1)) :
    ∀ i, ∃ r : ℝ, x0 i = ((r : ℝ) : EReal) := by
  intro i
  have h0 := congrFun h ValueIdx.ix0
  dsimp only [Cert.Pre_finite_inputs.fn] at h0
  -- the outer conjunctions: (all₀ ∧ all₁) ∧ all₂
  obtain ⟨h01, -⟩ := IntOp.andi_eq_one.1 h0
  obtain ⟨hx, -⟩ := IntOp.andi_eq_one.1 h01
  -- the first `all`: the comparison bit is 1 at every index
  have hi := Host.reduce_andi_all _ _ _ _ _ hx i
  -- read the comparison, the absolute value and the broadcast constant at the index
  rw [cmpf_apply, broadcastInDim_scalar_apply, constant_apply, ofBits_inf] at hi
  exact real_of_abs_lt_top (x0 i) hi

end Cert.Finite

end
-- ==== Proof.lean ====
/- A linear layer with a block-quantized weight, as a blocked matrix product on the matrix unit, against its jnp
   reference, over the extended reals.

   Both programs first de-quantize the weight the same way: w[n, k] = weight_q[n, k] · weight_scale[n / 128, k / 128].
   The kernel then multiplies the activations x by wᵀ block by block: each [2048, 1024] block of the result is
   accumulated over eight consecutive grid points, one per 512-column block of the contraction, from a zero block, and
   written back at the eighth. The reference quantizes the activations per 128-wide chunk (divide by
   s = max|chunk| / 448 + ε, clip to ±448), multiplies the scale back, and contracts once over all 4096 columns.

   Why they agree. Over the extended reals the changes of float format are the identity and every sum is exact, so
   the kernel's eight partial sums are one sum over the 4096 columns (addition of extended reals is associative and
   commutative; the zero block is neutral): x · wᵀ. In the reference, a finite entry r of a chunk with maximum M of
   absolute values satisfies |r| ≤ M < 448 · s, because ε is a positive number, so the clip does nothing, and
   (r / s) · s = r because s is a positive real: the de-quantized activations are x itself. This second step is where
   the precondition (every input finite) is used: at an infinite entry the chunk's scale is infinite and the
   quotient is no longer the entry. The three frames come from the programs' runs; no float operation of the
   kernel was rewritten on the way to its idealization, so that conjunct is trivial. -/
import proofs.«160474_j27066883899486_1_alg».proof.Defs
import proofs.«160474_j27066883899486_1_alg».proof.Proof.Gen.Kernel
import proofs.«160474_j27066883899486_1_alg».proof.Proof.Gen.Kernel.Skeleton
import proofs.«160474_j27066883899486_1_alg».proof.Proof.Gen.Kernel.Launch
import proofs.«160474_j27066883899486_1_alg».proof.Proof.Gen.Kernel.Points
import proofs.«160474_j27066883899486_1_alg».proof.Proof.Gen.Kernel.Frame
import proofs.«160474_j27066883899486_1_alg».proof.Proof.Gen.KernelIdeal
import proofs.«160474_j27066883899486_1_alg».proof.Proof.Gen.KernelIdeal.Skeleton
import proofs.«160474_j27066883899486_1_alg».proof.Proof.Gen.KernelIdeal.Launch
import proofs.«160474_j27066883899486_1_alg».proof.Proof.Gen.KernelIdeal.Points
import proofs.«160474_j27066883899486_1_alg».proof.Proof.Gen.KernelIdeal.Frame
import proofs.«160474_j27066883899486_1_alg».proof.Proof.Gen.ReferenceIdeal
import proofs.«160474_j27066883899486_1_alg».proof.Proof.Gen.KernelIdeal.Value
import proofs.«160474_j27066883899486_1_alg».proof.Proof.Gen.ReferenceIdeal.Run
import proofs.«160474_j27066883899486_1_alg».proof.Proof.Gen.ReferenceIdeal.Read
import proofs.«160474_j27066883899486_1_alg».proof.Proof.Gen.Pre_finite_inputs
import proofs.«160474_j27066883899486_1_alg».proof.Proof.KernelValue
import proofs.«160474_j27066883899486_1_alg».proof.Proof.RefValue
import proofs.«160474_j27066883899486_1_alg».proof.Proof.Finite
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- Both programs end with x · wᵀ of arguments that agree: the kernel as the sum of its eight block products, the
    reference because quantizing and de-quantizing finite activations gives them back. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hfin : ∀ i, ∃ r : ℝ, m' ((c.tc : Thread Cert.ReferenceIdeal.nD Cert.ReferenceIdeal.τ).loc Cert.ReferenceIdeal.main_arg0) i = ((r : ℝ) : EReal) := by
    rw [(hagree c).1]
    exact Cert.Finite.x_real _ _ _ (hpre c)
  rw [Cert.ReferenceIdeal.Read.val_main_v20_eq, Cert.ReferenceIdeal.RefValue.result_eq _ _ _ hfin,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
